-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x1 : Shape := ⟨2, ![320000, 1]⟩
abbrev S256x512 : Shape := ⟨2, ![256, 512]⟩
abbrev S256 : Shape := ⟨1, ![256]⟩
abbrev S320000 : Shape := ⟨1, ![320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S320000x1 .f32) (main_arg2 : FVec F S256x512 .f32) (main_arg3 : FVec F S256 .f32) (main_arg4 : IVec S320000 32) (main_arg5 : IVec S320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x1 .f32 := Host.absf main_arg1
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S320000x1 : Shape := ⟨2, ![320000, 1]⟩
abbrev S256x512 : Shape := ⟨2, ![256, 512]⟩
abbrev S256 : Shape := ⟨1, ![256]⟩
abbrev S320000 : Shape := ⟨1, ![320000]⟩
abbrev S_ : Shape := ⟨0, ![]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S1x256 : Shape := ⟨2, ![1, 256]⟩
abbrev S2000x512 : Shape := ⟨2, ![2000, 512]⟩
abbrev S2000x256 : Shape := ⟨2, ![2000, 256]⟩

abbrev nBuf : Space → Nat
  | .hbm => 37
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S320000x1, .f32⟩
  | .hbm, ⟨2, _⟩ => ⟨S256x512, .f32⟩
  | .hbm, ⟨3, _⟩ => ⟨S256, .f32⟩
  | .hbm, ⟨4, _⟩ => ⟨S320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x512, .f32⟩
  | .hbm, ⟨34, _⟩ => ⟨S512x256, .f32⟩
  | .hbm, ⟨35, _⟩ => ⟨S1x256, .f32⟩
  | .hbm, ⟨36, _⟩ => ⟨S10000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v21) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S320000x1 : Shape := ⟨2, ![320000, 1]⟩
abbrev S256x512 : Shape := ⟨2, ![256, 512]⟩
abbrev S256 : Shape := ⟨1, ![256]⟩
abbrev S320000 : Shape := ⟨1, ![320000]⟩
abbrev S_ : Shape := ⟨0, ![]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x1, .f32⟩
  | .hbm, ⟨2, _⟩ => ⟨S256x512, .f32⟩
  | .hbm, ⟨3, _⟩ => ⟨S256, .f32⟩
  | .hbm, ⟨4, _⟩ => ⟨S320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x512, .f32⟩
  | .hbm, ⟨34, _⟩ => ⟨S512x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Affine.lean ====
/-
  The value both programs compute, written once as a function of three arrays: a matrix `h` of 10000 rows and
  512 columns, a matrix `wt` of 512 rows and 256 columns, and a bias `b` of 256 entries. Entry (r, c) of the
  result is the inner product of row `r` of `h` with column `c` of `wt`, plus `b c`: the affine map
  `h · wt + b` over the extended reals. No law of the extended reals is needed to join the two programs: both
  form exactly this sum of 512 products and add the same bias entry.
-/
import Idealize.ShloMosaic.PureOps.Ideal
import Idealize.ShloMosaic.Lib.ValueIdx

noncomputable section

namespace Cert.Affine

open Idealize.ShloMosaic Idealize.ShloMosaic.ValueIdx

/-- One entry of `h · wt + b`: row `r` of `h` against column `c` of `wt`, plus `b c`. -/
def entry (h : FVec Ideal ⟨2, ![10000, 512]⟩ .f32) (wt : FVec Ideal ⟨2, ![512, 256]⟩ .f32) (b : FVec Ideal ⟨1, ![256]⟩ .f32)
    (r : Fin 10000) (c : Fin 256) : EReal :=
  (∑ k : Fin 512, h (ix2 r k) * wt (ix2 k c)) + b (ix1 c)

/-- The whole array `h · wt + b`, index by index. -/
def affine (h : FVec Ideal ⟨2, ![10000, 512]⟩ .f32) (wt : FVec Ideal ⟨2, ![512, 256]⟩ .f32) (b : FVec Ideal ⟨1, ![256]⟩ .f32) :
    FVec Ideal ⟨2, ![10000, 256]⟩ .f32 :=
  fun i => entry h wt b (i 0) (i 1)

/-- A one-row matrix read as its row. -/
def rowBias (x : FVec Ideal ⟨2, ![1, 256]⟩ .f32) : FVec Ideal ⟨1, ![256]⟩ .f32 := fun q => x (ix2 0 (q 0))

theorem affine_apply (h : FVec Ideal ⟨2, ![10000, 512]⟩ .f32) (wt : FVec Ideal ⟨2, ![512, 256]⟩ .f32) (b : FVec Ideal ⟨1, ![256]⟩ .f32)
    (r : Fin 10000) (c : Fin 256) : affine h wt b (ix2 r c) = entry h wt b r c := rfl

end Cert.Affine

end
-- ==== Proof.Entry.lean ====
/-
  What the kernel's one region finds in its three operand arrays. The host operations in front of the region are,
  operation for operation, the ones the reference runs in front of its matrix product: the gather of the source rows,
  the product with the edge weights, the two scatter-adds by destination, the quotient by the clamped in-degree, the
  join with the node features, and the transpose of the weights. So the left operand and the transposed weights are
  the reference's own intermediate values of the same arguments, carried here as opaque values and never opened. The
  third operand is the bias reshaped to one row: its entry (0, q) is the bias's entry q.
-/
import proofs.«125125_j70858370449689_1_alg».proof.Proof.Gen.KernelIdeal.Frame
import proofs.«125125_j70858370449689_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The joined features as the kernel's program spells them: per destination node the sum of the weighted source
    rows divided by the in-degree clamped below at one, with the node's own features appended. A negative source
    index is first wrapped by the number of nodes. -/
def joined (x0 : FVec Ideal S10000x256 .f32) (x1 : FVec Ideal S320000x1 .f32) (x4 x5 : IVec S320000 32) : FVec Ideal S10000x512 .f32 :=
  concatenate S10000x512 1 [⟨S10000x256, (Host.divf (F := Ideal) (Host.scatterAdd scatter_S10000x256_S320000x1_S320000x256_1_0_0_1 (broadcastInDim S10000x256 ![] bcast_S_S10000x256 (constant (F := Ideal) S_ .f32 0x00000000#32)) (broadcastInDim S320000x1 ![0] bcast_S320000_S320000x1_0 (x5)) (mulf (Host.gather gather_S10000x256_S320000x1_S320000x256_1_0_n_n_0_1_1256 (x0) (broadcastInDim S320000x1 ![0] bcast_S320000_S320000x1_0 (select (cmpi .slt (x4) (broadcastInDim S320000 ![] bcast_S_S320000 (constantI S_ 32 0#32))) (addi (x4) (broadcastInDim S320000 ![] bcast_S_S320000 (constantI S_ 32 10000#32))) (x4)))) (broadcastInDim S320000x256 ![0, 1] bcast_S320000x1_S320000x256_0_1 (x1)))) (broadcastInDim S10000x256 ![0, 1] bcast_S10000x1_S10000x256_0_1 (broadcastInDim S10000x1 ![0] bcast_S10000_S10000x1_0 (maximumf (Host.scatterAdd scatter_S10000_S320000x1_S320000_n_0_0_1 (broadcastInDim S10000 ![] bcast_S_S10000 (constant (F := Ideal) S_ .f32 0x00000000#32)) (broadcastInDim S320000x1 ![0] bcast_S320000_S320000x1_0 (x5)) (broadcastInDim S320000 ![] bcast_S_S320000 (constant (F := Ideal) S_ .f32 0x3F800000#32))) (broadcastInDim S10000 ![] bcast_S_S10000 (constant (F := Ideal) S_ .f32 0x3F800000#32))))))⟩, ⟨S10000x256, (x0)⟩] concatenates_S10000x256_S10000x256_S10000x512_d1

/-- The reference joins the same features by the same operations: its stages, unfolded one by one, spell the same
    term. -/
theorem joined_eq_reference (x0 : FVec Ideal S10000x256 .f32) (x1 : FVec Ideal S320000x1 .f32) (x4 x5 : IVec S320000 32) :
    joined x0 x1 x4 x5 = Cert.ReferenceIdeal.Read.val_main_v21 (F := Ideal) x0 x1 x4 x5 := by
  unfold joined Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rfl

set_option maxHeartbeats 2000000 in
/-- The region finds the joined features of the arguments in its left operand's array. -/
theorem lhs_array_joined (c : Dev nD) :
    (V m c main_v21 : S10000x512.Idx → EReal)
      = joined (m ((c : Thread nD τ).loc main_arg0)) (m ((c : Thread nD τ).loc main_arg1))
          (m ((c : Thread nD τ).loc main_arg4)) (m ((c : Thread nD τ).loc main_arg5)) := by
  dsimp only [Gen.V, Gen.hostOps0]
  after_results_simp
  rfl

/-- The left operand: the mean of the weighted neighbour rows joined with the node's own features, as the reference
    computes it from the same four arguments. -/
theorem lhs_array (c : Dev nD) :
    (V m c main_v21 : S10000x512.Idx → EReal)
      = Cert.ReferenceIdeal.Read.val_main_v21 (F := Ideal) (m ((c : Thread nD τ).loc main_arg0)) (m ((c : Thread nD τ).loc main_arg1))
          (m ((c : Thread nD τ).loc main_arg4)) (m ((c : Thread nD τ).loc main_arg5)) :=
  (lhs_array_joined m c).trans (joined_eq_reference _ _ _ _)

/-- The right operand: the weights transposed, as the reference transposes them. -/
theorem rhs_array (c : Dev nD) :
    (V m c main_v22 : S512x256.Idx → EReal)
      = Cert.ReferenceIdeal.Read.val_main_v22 (F := Ideal) (m ((c : Thread nD τ).loc main_arg2)) := by
  dsimp only [Gen.V, Gen.hostOps0]; after_results; rfl

/-- The bias row: entry (0, q) of the reshaped bias is the bias's entry q. -/
theorem bias_row (c : Dev nD) (q : Fin 256) :
    (V m c main_v23 : S1x256.Idx → EReal) (ix2 0 q) = (m ((c : Thread nD τ).loc main_arg3) : S256.Idx → EReal) (ix1 q) := by
  have e : (V m c main_v23 : S1x256.Idx → EReal)
      = shapeCast S1x256 (m ((c : Thread nD τ).loc main_arg3) : S256.Idx → EReal) shapeCasts_S256_S1x256 := by
    dsimp only [Gen.V, Gen.hostOps0]; after_results; rfl
  rw [e]
  exact shapeCast_apply _ shapeCasts_S256_S1x256 (ix2 0 q) (ix1 q) (by
    simp only [Shape.rowMajor_val_two]; rfl)

end Cert.KernelIdeal.Entry

end
-- ==== Proof.Payload.lean ====
/-
  What the kernel body stores, read at one entry of its 2000 × 256 output block. The body rounds its two loaded
  blocks to bf16 (the identity on extended reals), multiplies the 2000 × 512 block by the 512 × 256 block into a zero
  accumulator and adds the 1 × 256 bias row to every row. At entry (p, q) that is the sum over the 512 contraction
  positions `k` of (block row p, position k) times (position k, column q), plus the bias row's entry q.
-/
import proofs.«125125_j70858370449689_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices, axis by axis -/

/-- The left operand's row is the output's row. -/
theorem lhs_axis0 (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- The left operand's column is the contraction position. -/
theorem lhs_axis1 (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
/-- The right operand's row is the contraction position. -/
theorem rhs_axis0 (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
/-- The right operand's column is the output's column. -/
theorem rhs_axis1 (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-! ## The product into a zero accumulator, at an entry -/

/-- Entry (p, q) of the block product: the sum over the contraction positions of row p times column q. -/
theorem product_entry (l : FVec Ideal S2000x512 .bf16) (r : FVec Ideal S512x256 .bf16) (p : Fin 2000) (q : Fin 256) :
    matmul dot_S2000x512_S512x256_S2000x256_1_0_0_1_n_n none l r (constant (F := Ideal) S2000x256 .f32 0x00000000#32) (ix2 p q)
      = ∑ k : Fin 512, l (ix2 p k) * r (ix2 k q) := by
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx (ix2 p q) ((ValueIdx.contrEquiv1 dot_S2000x512_S512x256_S2000x256_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x256_S2000x256_1_0_0_1_n_n.rhsIdx (ix2 p q) ((ValueIdx.contrEquiv1 dot_S2000x512_S512x256_S2000x256_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## The bias row spread over the block's rows -/

/-- Every row of the broadcast holds the bias row: entry (p, q) is the row's entry q. -/
theorem bias_entry (x : FVec Ideal S1x256 .f32) (p : Fin 2000) (q : Fin 256) :
    broadcastTo S2000x256 x broadcasts_S1x256_S2000x256 (ix2 p q) = x (ix2 0 q) :=
  broadcastTo_apply x broadcasts_S1x256_S2000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The stored value at an entry -/

/-- Entry (p, q) of what the body stores, from its three loaded blocks. -/
theorem stored_entry (x0 : Vec Ideal S2000x512 .f32) (x1 : Vec Ideal S512x256 .f32) (x2 : Vec Ideal S1x256 .f32) (p : Fin 2000) (q : Fin 256) :
    k0_pay1 (F := Ideal) x0 x1 x2 (ix2 p q) = (∑ k : Fin 512, x0 (ix2 p k) * x1 (ix2 k q)) + x2 (ix2 0 q) := by
  unfold k0_pay1
  simp only [shapeCast_self]
  show matmul dot_S2000x512_S512x256_S2000x256_1_0_0_1_n_n none (x0 : FVec Ideal S2000x512 .bf16) (x1 : FVec Ideal S512x256 .bf16) (constant (F := Ideal) S2000x256 .f32 0x00000000#32) (ix2 p q)
      + broadcastTo S2000x256 (x2 : FVec Ideal S1x256 .f32) broadcasts_S1x256_S2000x256 (ix2 p q) = _
  rw [product_entry, bias_entry]

end Cert.KernelIdeal.Body

end
-- ==== Proof.KernelValue.lean ====
/-
  The kernel's output array after the run. The grid has five points; point `t` reads rows 2000·t … 2000·t + 1999 of
  the left operand, the whole right operand and the whole bias row, and writes rows 2000·t … 2000·t + 1999 of the
  output. What it writes is the affine map's entries at those rows (the stored value at an entry, with each block
  entry read back in its array), and the five row bands cover the output, so the array ends as `h · wt + b` of the
  three operand arrays as the region finds them.
-/
import proofs.«125125_j70858370449689_1_alg».proof.Proof.Gen.KernelIdeal.Value
import proofs.«125125_j70858370449689_1_alg».proof.Proof.Payload
import proofs.«125125_j70858370449689_1_alg».proof.Proof.Affine

set_option maxRecDepth 16384

noncomputable section

namespace Cert.KernelIdeal.Rows

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem origin : (![0, 0] : Fin 2 → Nat) = fun _ => 0 := funext fun a => by fin_cases a <;> rfl

/-- The three operand arrays as the region finds them, each at its literal type: the joined features, the transposed
    weights, the bias row. -/
abbrev lhsArr (c : Dev nD) : FVec Ideal S10000x512 .f32 := V m c main_v21
abbrev rhsArr (c : Dev nD) : FVec Ideal S512x256 .f32 := V m c main_v22
abbrev biasArr (c : Dev nD) : FVec Ideal S1x256 .f32 := V m c main_v23

/-- The block indices at a grid point: the left operand and the output move down one band per point, the right
    operand and the bias row stay; there are five points. -/
theorem band_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 5 :=
  (by decide +kernel : ∀ t : Fin grid0.N, _)

/-- Every band is some point's. -/
theorem band_onto : ∀ q0 : Fin 5, ∃ t : Fin cfg0.N, t.val = q0.val :=
  (by decide +kernel : ∀ q0 : Fin 5, ∃ t : Fin grid0.N, t.val = q0.val)

/-- Row `p` of point `t`'s band, as a row of the whole array. -/
def row (t : Fin cfg0.N) (p : Fin 2000) : Fin 10000 :=
  ⟨t.val * 2000 + p.val, by have := (band_facts t).2.2.2.2.2.2.2.2; have := p.isLt; omega⟩

/-! ## Each block entry, read back in its array -/

/-- Entry (p, k) of the left operand's block at point `t` is entry (row t p, k) of the array. -/
theorem lhs_read (c : Dev nD) (t : Fin cfg0.N) (p : Fin 2000) (k : Fin 512) :
    iblk m c 0 t (ix2 p k) = lhsArr m c (ix2 (row t p) k) := by
  obtain ⟨e0, e1, -⟩ := band_facts t
  show V m c main_v21 (((cfg0.win 0).blk t).view.emb (ix2 p k)) = V m c main_v21 (ix2 (row t p) k)
  have h : ((cfg0.win 0).blk t).view.emb (ix2 p k) = ix2 (row t p) k := by
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  rw [h]

/-- The right operand's block is the whole array. -/
theorem rhs_read (c : Dev nD) (t : Fin cfg0.N) (k : Fin 512) (q : Fin 256) :
    iblk m c 1 t (ix2 k q) = rhsArr m c (ix2 k q) := by
  obtain ⟨-, -, e0, e1, -⟩ := band_facts t
  show V m c main_v22 (((cfg0.win 1).blk t).view.emb (ix2 k q)) = V m c main_v22 (ix2 k q)
  have h : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 256 + 1 * q.val = q.val; omega
  rw [h]

/-- The bias row's block is the whole row. -/
theorem bias_read (c : Dev nD) (t : Fin cfg0.N) (q : Fin 256) :
    iblk m c 2 t (ix2 0 q) = biasArr m c (ix2 0 q) := by
  obtain ⟨-, -, -, -, e0, e1, -⟩ := band_facts t
  show V m c main_v23 (((cfg0.win 2).blk t).view.emb (ix2 0 q)) = V m c main_v23 (ix2 0 q)
  have h : ((cfg0.win 2).blk t).view.emb (ix2 (0 : Fin 1) q) = ix2 0 q := by
    funext a; apply Fin.ext
    match a with
    | ⟨0, _⟩ => show win0_2.index t (0 : Fin 2) * 1 + 1 * 0 = 0; omega
    | ⟨1, _⟩ => show win0_2.index t (1 : Fin 2) * 256 + 1 * q.val = q.val; omega
  rw [h]

/-- Entry (p, q) of the output's block at point `t` sits at (row t p, q) of the array. -/
theorem out_index (t : Fin cfg0.N) (p : Fin 2000) (q : Fin 256) :
    ((cfg0.win 3).blk t).view.emb (ix2 p q) = ix2 (row t p) q := by
  obtain ⟨-, -, -, -, -, -, e0, e1, -⟩ := band_facts t
  funext a; apply Fin.ext
  match a with
  | ⟨0, _⟩ => show win0_3.index t (0 : Fin 2) * 2000 + 1 * p.val = t.val * 2000 + p.val; omega
  | ⟨1, _⟩ => show win0_3.index t (1 : Fin 2) * 256 + 1 * q.val = q.val; omega

/-! ## What a point writes back, and the whole array -/

/-- The array the run ends with: the affine map of the operand arrays as the region finds them. -/
abbrev target (c : Dev nD) : FVec Ideal S10000x256 .f32 :=
  Cert.Affine.affine (lhsArr m c) (rhsArr m c) (Cert.Affine.rowBias (biasArr m c))

/-- Point `t` writes back band `t` of the affine map. -/
theorem flushed_eq (c : Dev nD) (t : Fin cfg0.N) :
    (dats m 0 c).flushed 3 t = ((cfg0.win 3).blk t).view.read (Elt Ideal) (target m c) := by
  rw [Cert.KernelIdeal.Value.flushed3]
  unfold out0_3
  rw [View.canon_unit_zero origin]
  simp only [View.ld_unit_zero (S := S2000x512) origin, View.ld_unit_zero (S := S512x256) origin, View.ld_unit_zero (S := S1x256) origin]
  refine funext fun (j : S2000x256.Idx) => ?_
  obtain ⟨p, q, rfl⟩ : ∃ (p : Fin 2000) (q : Fin 256), j = ix2 p q := ⟨j 0, j 1, eq_ix2 j⟩
  show k0_pay1 (F := Ideal) (iblk m c 0 t) (iblk m c 1 t) (iblk m c 2 t) (ix2 p q) = target m c (((cfg0.win 3).blk t).view.emb (ix2 p q))
  rw [out_index]
  refine (Cert.KernelIdeal.Body.stored_entry (iblk m c 0 t) (iblk m c 1 t) (iblk m c 2 t) p q).trans ?_
  show _ = (∑ k : Fin 512, lhsArr m c (ix2 (row t p) k) * rhsArr m c (ix2 k q)) + biasArr m c (ix2 0 q)
  rw [bias_read]
  exact congrArg (fun s => s + biasArr m c (ix2 0 q)) (Finset.sum_congr rfl fun k _ => by rw [lhs_read, rhs_read])

/-- An index of the array is in point `t`'s band iff each coordinate is in the band's range. -/
theorem mem_band (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v24).slice (win0_3.rect t)).set ↔ _
  rw [View.set_slice_whole, Rect.mem_set_unit]
  exact Iff.rfl

/-- The five bands cover the array: row r lies in band r / 2000. -/
theorem covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := band_onto ⟨(i 0).val / 2000, by omega⟩
  have ht' : t.val = (i 0).val / 2000 := ht
  obtain ⟨-, -, -, -, -, -, e0, e1, -⟩ := band_facts t
  refine ⟨t, flush0_3 t, ?_⟩
  rw [mem_band]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the run. -/
theorem final (c : Dev nD) : (dats m 0 c).arrAt 3 cfg0.N = target m c :=
  (dats m 0 c).arrAt_eq_of_cover 3 (target m c) (fun t _ => flushed_eq m c t) covered

/-- The kernel's run with its result named: the affine map of the operand arrays as the region finds them; the
    arguments unchanged. -/
theorem run : θ_run defs (onTc (τ := τ) (main (F := Ideal))) ⟨m, fun _ => 0, ρ⟩ fun r => ∀ c : Dev nD,
      r.2.mem ((c : Thread nD τ).loc main_v24) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Rows

end
-- ==== Proof.RefValue.lean ====
/-
  The reference's result is `h · wt + b` of its own intermediate values: its matrix product at entry (r, c) is the
  sum over the 512 contraction positions of the joined features' row r against the transposed weights' column c, and
  the bias, spread first to one row and then over all rows, contributes its entry c.
-/
import proofs.«125125_j70858370449689_1_alg».proof.Proof.Gen.ReferenceIdeal.Read
import proofs.«125125_j70858370449689_1_alg».proof.Proof.Affine

noncomputable section

namespace Cert.ReferenceIdeal.RefValue

open Cert.ReferenceIdeal Cert.ReferenceIdeal.Gen Cert.ReferenceIdeal.Read Idealize.ShloMosaic Idealize.ShloMosaic.ValueIdx

/-- The left operand is read at (row of the entry, contraction position). -/
theorem left_index (i : S10000x256.Idx) (k : Fin 512) : lidx_main_v23 i k = ix2 (i 0) k :=
  funext fun a => Fin.ext (by match a with | ⟨0, _⟩ => rfl | ⟨1, _⟩ => rfl)

/-- The right operand is read at (contraction position, column of the entry). -/
theorem right_index (i : S10000x256.Idx) (k : Fin 512) : ridx_main_v23 i k = ix2 k (i 1) :=
  funext fun a => Fin.ext (by match a with | ⟨0, _⟩ => rfl | ⟨1, _⟩ => rfl)

/-- The bias, spread twice, is read at the column of the entry. -/
theorem bias_index (i : S10000x256.Idx) : idx_main_v24 (idx_main_v25 i) = ix1 (i 1) :=
  funext fun a => Fin.ext (by match a with | ⟨0, _⟩ => rfl)

/-- The reference's result is the affine map of its joined features, its transposed weights and the bias. -/
theorem result_eq (x0 : (⟨S10000x256, .f32⟩ : BufTy).Contents (Elt Ideal)) (x1 : (⟨S320000x1, .f32⟩ : BufTy).Contents (Elt Ideal))
    (x2 : (⟨S256x512, .f32⟩ : BufTy).Contents (Elt Ideal)) (x3 : (⟨S256, .f32⟩ : BufTy).Contents (Elt Ideal))
    (x4 x5 : (⟨S320000, .i32⟩ : BufTy).Contents (Elt Ideal)) :
    val_main_v26 (F := Ideal) x0 x1 x2 x3 x4 x5
      = Cert.Affine.affine (val_main_v21 (F := Ideal) x0 x1 x4 x5) (val_main_v22 (F := Ideal) x2) x3 := by
  funext i
  rw [val_main_v26_apply, val_main_v23_apply, val_main_v25_apply, val_main_v24_apply]
  generalize val_main_v21 (F := Ideal) x0 x1 x4 x5 = H
  generalize val_main_v22 (F := Ideal) x2 = WT
  simp only [left_index, right_index, bias_index]
  rfl

end Cert.ReferenceIdeal.RefValue

end
-- ==== Proof.lean ====
/-
  A graph layer: every node averages its neighbours' weighted features (a gather of the source rows, a product with
  the edge weights, a sum by destination, a quotient by the in-degree clamped below at one), appends its own
  features, and applies one linear map with a bias. The kernel and the reference run the same host operations up to
  the joined features `h` (10000 × 512) and the transposed weights `wt` (512 × 256); the kernel then computes
  `h · wt + b` in five row bands of 2000 rows on the TensorCore, rounding both factors to bf16 first, and the
  reference computes it as one matrix product plus the bias spread over the rows.

  Over the extended reals the rounding is the identity, the banded product into a zero accumulator and the whole
  product are the same sum of 512 products at every entry, and both add the same bias entry: the results agree entry
  by entry with no law beyond `0 + x = x`. The finiteness of the inputs is not used.

  The three frames: the kernel's two are its generated frame certificate; the reference's is its generated run with
  the result dropped. The idealization rewrote nothing, so `preserves` is trivial. For `algebraic`: the kernel's
  array after the run is the affine map of the operand arrays as the region finds them (Proof/KernelValue.lean over
  Proof/Payload.lean), those arrays are the reference's own intermediate values of the same arguments
  (Proof/Entry.lean), and the reference's result is the affine map of those values (Proof/RefValue.lean); the map
  itself is Proof/Affine.lean.
-/
import proofs.«125125_j70858370449689_1_alg».proof.Defs
import proofs.«125125_j70858370449689_1_alg».proof.Proof.Gen.Kernel
import proofs.«125125_j70858370449689_1_alg».proof.Proof.Gen.Kernel.Skeleton
import proofs.«125125_j70858370449689_1_alg».proof.Proof.Gen.Kernel.Launch
import proofs.«125125_j70858370449689_1_alg».proof.Proof.Gen.Kernel.Points
import proofs.«125125_j70858370449689_1_alg».proof.Proof.Gen.Kernel.Frame
import proofs.«125125_j70858370449689_1_alg».proof.Proof.Gen.KernelIdeal
import proofs.«125125_j70858370449689_1_alg».proof.Proof.Gen.KernelIdeal.Skeleton
import proofs.«125125_j70858370449689_1_alg».proof.Proof.Gen.KernelIdeal.Launch
import proofs.«125125_j70858370449689_1_alg».proof.Proof.Gen.KernelIdeal.Points
import proofs.«125125_j70858370449689_1_alg».proof.Proof.Gen.KernelIdeal.Frame
import proofs.«125125_j70858370449689_1_alg».proof.Proof.Gen.ReferenceIdeal
import proofs.«125125_j70858370449689_1_alg».proof.Proof.Gen.Pre_finite_inputs
import proofs.«125125_j70858370449689_1_alg».proof.Proof.Gen.KernelIdeal.Value
import proofs.«125125_j70858370449689_1_alg».proof.Proof.Gen.ReferenceIdeal.Run
import proofs.«125125_j70858370449689_1_alg».proof.Proof.Gen.ReferenceIdeal.Read
import proofs.«125125_j70858370449689_1_alg».proof.Proof.Affine
import proofs.«125125_j70858370449689_1_alg».proof.Proof.Entry
import proofs.«125125_j70858370449689_1_alg».proof.Proof.KernelValue
import proofs.«125125_j70858370449689_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `h · wt + b` of the same joined features, transposed weights and bias. -/
theorem algebraic : Cert.algebraic_KernelIdeal_ReferenceIdeal := by
  intro m ρ m' ρ' _ hagree
  refine ⟨fun c => Cert.KernelIdeal.Rows.target m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v26_eq, Cert.ReferenceIdeal.RefValue.result_eq, h0, h1, h2, h3, h4, h5]
  have e1 : Cert.KernelIdeal.Rows.lhsArr m c = _ := Cert.KernelIdeal.Entry.lhs_array m c
  have e2 : Cert.KernelIdeal.Rows.rhsArr m c = _ := Cert.KernelIdeal.Entry.rhs_array m c
  have e3 : Cert.Affine.rowBias (Cert.KernelIdeal.Rows.biasArr m c)
      = m ((c : Thread Cert.KernelIdeal.nD Cert.KernelIdeal.τ).loc Cert.KernelIdeal.main_arg3) :=
    funext fun q => by rw [eq_ix1 q]; exact Cert.KernelIdeal.Entry.bias_row m c (q 0)
  show _ = Cert.Affine.affine (Cert.KernelIdeal.Rows.lhsArr m c) (Cert.KernelIdeal.Rows.rhsArr m c)
    (Cert.Affine.rowBias (Cert.KernelIdeal.Rows.biasArr m c))
  rw [e1, e2, e3]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
